-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2048x512 : Shape := ⟨2, ![2048, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S50000x512 .f32) (main_arg1 : FVec F S2048x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S50000x512 : Shape := ⟨2, ![50000, 512]⟩
abbrev S2048x512 : Shape := ⟨2, ![2048, 512]⟩
abbrev S_ : Shape := ⟨0, ![]⟩
abbrev S51200x512 : Shape := ⟨2, ![51200, 512]⟩
abbrev S2048x51200 : Shape := ⟨2, ![2048, 51200]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S2048x50000 : Shape := ⟨2, ![2048, 50000]⟩

abbrev nBuf : Space → Nat
  | .hbm => 7
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S_, .i32⟩
  | .hbm, ⟨3, _⟩ => ⟨S_, .f32⟩
  | .hbm, ⟨4, _⟩ => ⟨S51200x512, .f32⟩
  | .hbm, ⟨5, _⟩ => ⟨S2048x51200, .f32⟩
  | .hbm, ⟨6, _⟩ => ⟨S2048x50000, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S256x2048, .f32⟩
  | .local _ .vmem, ⟨5, _⟩ => ⟨S256x2048, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S50000x512_S51200x512_012000_000 : S50000x512.Pads (![0, 0] : Fin 2 → Nat) ![1200, 0] ![0, 0] S51200x512
  h_S_ : 0 < S_.numel
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  reduces_S256x512_S256 : S256x512.Reduces [1] S256
  shapeCasts_S256_S256x1 : S256.ShapeCasts S256x1
  reduces_S2048x512_S2048 : S2048x512.Reduces [1] S2048
  shapeCasts_S2048_S2048x1 : S2048.ShapeCasts S2048x1
  transposes_S2048x1_p1_0_S1x2048 : S2048x1.Transposes [1, 0] S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  slices_S2048x51200_S2048x50000_0_0 : S2048x51200.Slices ![0, 0] S2048x50000
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S51200x512.size a
  hwx0_1 : ∀ i : grid0.Coords, EltTy.bits .f32 = 32 ∨ (Rect.block (s := S51200x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x51200.size a
  hwx0_2 : ∀ i : grid0.Coords, EltTy.bits .f32 = 32 ∨ (Rect.block (s := S2048x51200) S256x2048.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2048x512 : Shape := ⟨2, ![2048, 512]⟩
abbrev S2048x50000 : Shape := ⟨2, ![2048, 50000]⟩
abbrev S_ : Shape := ⟨0, ![]⟩
abbrev S50000 : Shape := ⟨1, ![50000]⟩
abbrev S2048 : Shape := ⟨1, ![2048]⟩
abbrev S2048x1 : Shape := ⟨2, ![2048, 1]⟩
abbrev S1x50000 : Shape := ⟨2, ![1, 50000]⟩

abbrev nBuf : Space → Nat
  | .hbm => 20
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S2048x50000, .f32⟩
  | .hbm, ⟨3, _⟩ => ⟨S50000x512, .f32⟩
  | .hbm, ⟨4, _⟩ => ⟨S_, .f32⟩
  | .hbm, ⟨5, _⟩ => ⟨S50000, .f32⟩
  | .hbm, ⟨6, _⟩ => ⟨S50000, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S1x50000, .f32⟩
  | .hbm, ⟨13, _⟩ => ⟨S2048x50000, .f32⟩
  | .hbm, ⟨14, _⟩ => ⟨S2048x50000, .f32⟩
  | .hbm, ⟨15, _⟩ => ⟨S2048x50000, .f32⟩
  | .hbm, ⟨16, _⟩ => ⟨S_, .f32⟩
  | .hbm, ⟨17, _⟩ => ⟨S2048x50000, .f32⟩
  | .hbm, ⟨18, _⟩ => ⟨S2048x50000, .f32⟩
  | .hbm, ⟨19, _⟩ => ⟨S2048x50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S50000x512_S50000_d1 : S50000x512.ReducesTo [1] S50000
  h_S_ : 0 < S_.numel
  reducesTo_S2048x512_S2048_d1 : S2048x512.ReducesTo [1] S2048
  bcast_S2048_S2048x1_0 : S2048.BroadcastsInDim S2048x1 (![0] : Fin 1 → Fin S2048x1.rank)
  bcast_S50000_S1x50000_1 : S50000.BroadcastsInDim S1x50000 (![1] : Fin 1 → Fin S1x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  bcast_S_S2048x50000 : S_.BroadcastsInDim S2048x50000 (![] : Fin 0 → Fin S2048x50000.rank)
  dot_S2048x512_S50000x512_S2048x50000_1_1_0_0_n_n_wf : DotDims.WF S2048x512 S50000x512 S2048x50000 [1] [1] [0] [0] [] []

variable [Facts₀]

def dot_S2048x512_S50000x512_S2048x50000_1_1_0_0_n_n : DotDims S2048x512 S50000x512 S2048x50000 where
  lhsContracting := [1]
  rhsContracting := [1]
  lhsNonContracting := [0]
  rhsNonContracting := [0]
  lhsBatch := []
  rhsBatch := []
  wf := dot_S2048x512_S50000x512_S2048x50000_1_1_0_0_n_n_wf

class Facts : Prop extends Facts₀ where

variable [Facts]
-- ==== Proof.Spec.lean ====
/-
  The cosine of two rows, and the matrix of all cosines between the rows of two matrices.

  For rows a and b of 512 extended reals, the cosine is the quotient of their inner product by the larger of the
  product of their Euclidean norms and a fixed small constant (the guard against a zero denominator). For a matrix
  q with 2048 rows and a matrix s with N rows, the entry (i, j) of the cosine matrix is the cosine of row i of q and
  row j of s. Nothing here depends on a program.
-/
import Idealize.ShloMosaic.Lib.ValueIdx
import Idealize.ShloMosaic.PureOps.Ideal.Laws

noncomputable section

open scoped BigOperators

namespace Cert.Cosine

open Idealize.ShloMosaic Idealize.ShloMosaic.ValueIdx

/-- The cosine of two rows: inner product over the guarded product of the norms. -/
def rowCos (a b : Fin 512 → EReal) : EReal :=
  Ideal.div (∑ k : Fin 512, a k * b k)
    (max (Ideal.sqrt (∑ k : Fin 512, a k * a k) * Ideal.sqrt (∑ k : Fin 512, b k * b k))
      (Ideal.ofBits .f32 0x322BCC77#32))

/-- The cosine matrix of the rows of `q` (2048 of them) against the rows of `s` (N of them). -/
def cosMat {N : Nat} (q : (⟨2, ![2048, 512]⟩ : Shape).Idx → EReal) (s : (⟨2, ![N, 512]⟩ : Shape).Idx → EReal) :
    (⟨2, ![2048, N]⟩ : Shape).Idx → EReal :=
  fun i => rowCos (fun k => q (ix2 (i 0) k)) (fun k => s (ix2 (i 1) k))

/-- The cosine matrix at the entry (i, j). -/
theorem cosMat_apply {N : Nat} (q : (⟨2, ![2048, 512]⟩ : Shape).Idx → EReal) (s : (⟨2, ![N, 512]⟩ : Shape).Idx → EReal)
    (i : Fin 2048) (j : Fin N) :
    cosMat q s (ix2 i j) = rowCos (fun k => q (ix2 i k)) (fun k => s (ix2 j k)) := rfl

end Cert.Cosine

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibRowNorm.lean ====
/-
  The Euclidean norms of a matrix's rows, carried to the entries of a larger matrix by layout operations, read at an
  entry (a general lemma: nothing here depends on a program).

  For an [A, K] matrix x, the column of row norms is the square root of the row sums of x * x, shape-cast to [A, 1].
  Broadcast along the columns to [A, B] it holds at (p, r) the norm of row p; transposed to one row [1, A] and
  broadcast down the rows to [B, A] it holds at (p, r) the norm of row r. In both cases the norm is the square root,
  on the extended reals, of the sum over k < K of x(row, k) * x(row, k).
-/
import proofs.«109525_j2594160247418_1_alg».proof.Proof.LibLayoutCol
import proofs.«109525_j2594160247418_1_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.RowNorm

open Cert.Lib.LayoutCol Cert.Lib.AxisSum
open Idealize.ShloMosaic Idealize.ShloMosaic.ValueIdx

/-- The norms of the rows, as a column broadcast along the columns: at (p, r) the norm of row p. -/
theorem rowNorm_bcast {A B K : Nat} (x : FVec Ideal ⟨2, ![A, K]⟩ .f32)
    (h : (⟨2, ![A, K]⟩ : Shape).Reduces [1] ⟨1, ![A]⟩) (h1 : (⟨1, ![A]⟩ : Shape).ShapeCasts ⟨2, ![A, 1]⟩)
    (h2 : (⟨2, ![A, 1]⟩ : Shape).Broadcasts ⟨2, ![A, B]⟩) (p : Fin A) (r : Fin B) :
    broadcastTo ⟨2, ![A, B]⟩ (sqrt (shapeCast ⟨2, ![A, 1]⟩ (multiReduction .add [1] ⟨1, ![A]⟩ (mulf x x) 0x00000000#32 h (.inl rfl) rfl) h1)) h2 (ix2 p r)
      = Ideal.sqrt (∑ k : Fin K, (x (ix2 p k) : EReal) * (x (ix2 p k) : EReal)) := by
  refine (broadcastTo_apply _ h2 (ix2 p r) (ix2 p (0 : Fin 1)) ?_).trans ?_
  · intro a
    match a with
    | ⟨0, _⟩ =>
      show p.val = if A = 1 then 0 else p.val
      split
      · have := p.isLt; omega
      · rfl
    | ⟨1, _⟩ => simp
  · exact congrArg Ideal.sqrt ((colCast_apply _ h1 p 0).trans (rowSum_apply (mulf x x) _ h _ _ p))

/-- The same column transposed to one row and broadcast down the rows: at (p, r) the norm of row r. -/
theorem rowNorm_bcastT {A B K : Nat} (x : FVec Ideal ⟨2, ![A, K]⟩ .f32)
    (h : (⟨2, ![A, K]⟩ : Shape).Reduces [1] ⟨1, ![A]⟩) (h1 : (⟨1, ![A]⟩ : Shape).ShapeCasts ⟨2, ![A, 1]⟩)
    (ht : (⟨2, ![A, 1]⟩ : Shape).Transposes [1, 0] ⟨2, ![1, A]⟩)
    (h2 : (⟨2, ![1, A]⟩ : Shape).Broadcasts ⟨2, ![B, A]⟩) (p : Fin B) (r : Fin A) :
    broadcastTo ⟨2, ![B, A]⟩ (transpose ⟨2, ![1, A]⟩ [1, 0] (sqrt (shapeCast ⟨2, ![A, 1]⟩ (multiReduction .add [1] ⟨1, ![A]⟩ (mulf x x) 0x00000000#32 h (.inl rfl) rfl) h1)) ht) h2 (ix2 p r)
      = Ideal.sqrt (∑ k : Fin K, (x (ix2 r k) : EReal) * (x (ix2 r k) : EReal)) := by
  refine (broadcastTo_1b_ab_apply _ h2 p r).trans ?_
  refine (transpose_ix2_apply _ ht (0 : Fin 1) r).trans ?_
  exact congrArg Ideal.sqrt ((colCast_apply _ h1 r 0).trans (rowSum_apply (mulf x x) _ h _ _ r))

end Cert.Lib.RowNorm

end
-- ==== Proof.KernelPay.lean ====
/-
  What the kernel's body stores, read at one entry.

  The body loads a block x0 of 256 query rows and a block x1 of 2048 support rows (512 columns each) and stores a
  256 by 2048 block. Its entry (p, r) is the inner product of row p of x0 and row r of x1 (a narrowing of the operands
  to a shorter float format is the identity on the extended reals, and the product accumulates into zero), divided by
  the larger of the small guard constant and the product of the two rows' norms, each the square root of the row's sum
  of squares. The row norms reach the entry through layout operations only: a column [A, 1] broadcast along the
  columns, and (for the support rows) that column transposed to one row [1, A] and broadcast down the rows (the
  general lemmas on row norms). So the entry is the cosine of the two rows.
-/
import proofs.«109525_j2594160247418_1_alg».proof.Proof.Gen.KernelIdeal.Skeleton
import proofs.«109525_j2594160247418_1_alg».proof.Proof.Spec
import proofs.«109525_j2594160247418_1_alg».proof.Proof.LibRowNorm
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Cosine Cert.Lib.RowNorm
open Idealize.ShloMosaic Idealize.ShloMosaic.ValueIdx

/-! ## The product's operand indices, axis by axis: both operands are contracted along their columns -/

theorem lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The product of a 256-row block with the transpose of a 2048-row block, accumulated into zero, at (p, r): the
    inner product of row p of the first with row r of the second. -/
theorem dots_apply {φ₁ φ₂ : FTy} (a : FVec Ideal S256x512 φ₁) (b : FVec Ideal S2048x512 φ₂) (p : Fin 256) (r : Fin 2048) :
    matmul dot_S256x512_S2048x512_S256x2048_1_1_0_0_n_n none a b (constant S256x2048 .f32 0x00000000#32) (ix2 p r)
      = ∑ k : Fin 512, (a (ix2 p k) : EReal) * (b (ix2 r k) : EReal) := by
  simp only [matmul]
  rw [Ideal.matmul_constant_zero_apply, ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 p r) ((contrEquiv1 dot_S256x512_S2048x512_S256x2048_1_1_0_0_n_n 512 rfl rfl).symm k) = ix2 p k := funext fun a => Fin.ext (by
    match a with
    | ⟨0, _⟩ => exact lhs_0 _ _
    | ⟨1, _⟩ => exact (lhs_1 _ _).trans hk)
  have er : dot_S256x512_S2048x512_S256x2048_1_1_0_0_n_n.rhsIdx (ix2 p r) ((contrEquiv1 dot_S256x512_S2048x512_S256x2048_1_1_0_0_n_n 512 rfl rfl).symm k) = ix2 r k := funext fun a => Fin.ext (by
    match a with
    | ⟨0, _⟩ => exact rhs_0 _ _
    | ⟨1, _⟩ => exact (rhs_1 _ _).trans hk)
  rw [el, er]

/-! ## The stored block at an entry -/

/-- The body's stored value at (p, r) is the cosine of row p of the query block and row r of the support block. -/
theorem pay_apply (x0 : Vec Ideal S256x512 .f32) (x1 : Vec Ideal S2048x512 .f32) (p : Fin 256) (r : Fin 2048) :
    k0_pay1 (F := Ideal) x0 x1 (ix2 p r) = rowCos (fun k => x0 (ix2 p k)) (fun k => x1 (ix2 r k)) := by
  have e2 : shapeCast S2048x512 x1 shapeCasts_S2048x512_S2048x512 = x1 := shapeCast_self x1 _
  unfold k0_pay1 rowCos
  dsimp only
  rw [e2]
  exact congrArg₂ Ideal.div (dots_apply _ _ p r)
    (congrArg₂ max (congrArg₂ (· * ·) (rowNorm_bcast x0 _ _ _ p r) (rowNorm_bcastT x1 _ _ _ _ p r)) rfl)

end Cert.KernelIdeal.Pay

end
-- ==== Proof.KernelBlocks.lean ====
/-
  From the kernel's blocks to its whole output array.

  The grid has 8 x 25 points. At the point whose output block is (bq, bs) the body reads query rows
  256 bq .. 256 bq + 255 and (padded) support rows 2048 bs .. 2048 bs + 2047, and writes back the 256 x 2048 block
  of the output at (256 bq, 2048 bs). By the entry-by-entry reading of the body, the entry (p, r) of that block is the
  cosine of query row 256 bq + p and support row 2048 bs + r: the block is the restriction of ONE matrix, the cosine
  matrix of the queries against the padded support set. The 200 blocks tile the 2048 x 51200 output, so after the
  region the output array is that matrix.
-/
import proofs.«109525_j2594160247418_1_alg».proof.Proof.Gen.KernelIdeal.Frame
import proofs.«109525_j2594160247418_1_alg».proof.Proof.KernelPay
import Idealize.ShloMosaic.Lib.Pipeline.Value

set_option maxRecDepth 16384

noncomputable section

open scoped BigOperators

namespace Cert.KernelIdeal.Blocks

open Cert.KernelIdeal Cert.KernelIdeal.Gen Cert.KernelIdeal.Pay Cert.Cosine
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The queries as the region finds them, and the padded support set as the region finds it. -/
abbrev qArr (c : Dev nD) : S2048x512.Idx → EReal := V m c main_arg1
abbrev sArr (c : Dev nD) : S51200x512.Idx → EReal := V m c main_v0

/-- The index maps over the grid: the query window follows the output's row block, the support window the output's
    column block, both at column block 0; the output's block indices range over 8 x 25. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 24 :=
  (by decide +kernel : ∀ t : Fin grid0.N, _)

/-- Every output block is some point's. -/
theorem idx_onto : ∀ (q0 : Fin 8) (q1 : Fin 25), ∃ t : Fin cfg0.N, win0_2.index t = ![q0.val, q1.val] :=
  (by decide +kernel : ∀ (q0 : Fin 8) (q1 : Fin 25), ∃ t : Fin grid0.N, win0_2.index t = ![q0.val, q1.val])

/-- Row p of the query block at point t is the query row the output block's row p sits on. -/
theorem qblk_apply (c : Dev nD) (t : Fin cfg0.N) (j : S256x2048.Idx) (k : Fin 512) :
    (iblk m c 0 t : Vec Ideal S256x512 .f32) (ix2 (j 0) k)
      = qArr m c (ix2 ((((cfg0.win 2).blk t).view.emb j) 0) k) := by
  obtain ⟨e0, e1, -⟩ := idx_facts t
  show qArr m c (((cfg0.win 0).blk t).view.emb (ix2 (j 0) k)) = _
  refine congrArg (qArr m c) (funext fun a => Fin.ext ?_)
  match a with
  | ⟨0, _⟩ => show win0_0.index t (0 : Fin 2) * 256 + 1 * (j 0).val = win0_2.index t (0 : Fin 2) * 256 + 1 * (j 0).val; rw [e0]
  | ⟨1, _⟩ => show win0_0.index t (1 : Fin 2) * 512 + 1 * k.val = k.val; rw [e1]; omega

/-- Row r of the support block at point t is the padded support row the output block's column r sits on. -/
theorem sblk_apply (c : Dev nD) (t : Fin cfg0.N) (j : S256x2048.Idx) (k : Fin 512) :
    (iblk m c 1 t : Vec Ideal S2048x512 .f32) (ix2 (j 1) k)
      = sArr m c (ix2 ((((cfg0.win 2).blk t).view.emb j) 1) k) := by
  obtain ⟨-, -, e2, e3, -⟩ := idx_facts t
  show sArr m c (((cfg0.win 1).blk t).view.emb (ix2 (j 1) k)) = _
  refine congrArg (sArr m c) (funext fun a => Fin.ext ?_)
  match a with
  | ⟨0, _⟩ => show win0_1.index t (0 : Fin 2) * 2048 + 1 * (j 1).val = win0_2.index t (1 : Fin 2) * 2048 + 1 * (j 1).val; rw [e2]
  | ⟨1, _⟩ => show win0_1.index t (1 : Fin 2) * 512 + 1 * k.val = k.val; rw [e3]; omega

/-- What point t writes back is block t of the cosine matrix of the queries against the padded support set. -/
theorem flushed_eq (c : Dev nD) (t : Fin cfg0.N) :
    (dats m 0 c).flushed 2 t = ((cfg0.win 2).blk t).view.read (Elt Ideal) (cosMat (N := 51200) (qArr m c) (sArr m c)) := by
  show (cfg0.win 2).cut (grid0.coords t) ((dats m 0 c).after 2 t) = _
  rw [after0_2]
  unfold out0_2
  rw [View.canon_unit_zero hz]
  simp only [View.ld_unit_zero (S := S256x512) hz, View.ld_unit_zero (S := S2048x512) hz]
  funext j
  show k0_pay1 (F := Ideal) (iblk m c 0 t) (iblk m c 1 t) j
    = cosMat (N := 51200) (qArr m c) (sArr m c) (((cfg0.win 2).blk t).view.emb j)
  refine ((congrArg (k0_pay1 (F := Ideal) (iblk m c 0 t) (iblk m c 1 t)) (eq_ix2 j)).trans
    (pay_apply (iblk m c 0 t) (iblk m c 1 t) (j 0) (j 1))).trans ?_
  unfold cosMat
  exact congrArg₂ rowCos (funext fun k => qblk_apply m c t j k) (funext fun k => sblk_apply m c t j k)

/-- An index of the output is in point t's block iff each coordinate is in the block's range on its axis. -/
theorem mem_blk (t : Fin cfg0.N) (i : S2048x51200.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1).slice (win0_2.rect t)).set ↔ _
  rw [View.set_slice_whole, Rect.mem_set_unit]
  exact Iff.rfl

/-- The blocks tile the output: entry (i0, i1) is in the block (i0 / 256, i1 / 2048). -/
theorem cover (i : S2048x51200.Idx) :
    ∃ t : Fin cfg0.N, (cfg0.win 2).flush t = true ∧ i ∈ ((cfg0.win 2).blk t).view.set := by
  have hi0 : (i 0).val < 2048 := (i 0).isLt
  have hi1 : (i 1).val < 51200 := (i 1).isLt
  obtain ⟨t, ht⟩ := idx_onto ⟨(i 0).val / 256, by omega⟩ ⟨(i 1).val / 2048, by omega⟩
  have q0 : win0_2.index t (0 : Fin 2) = (i 0).val / 256 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- After the region the output array is the cosine matrix of the queries against the padded support set. -/
theorem final (c : Dev nD) :
    (dats m 0 c).arrAt 2 cfg0.N = cosMat (N := 51200) (qArr m c) (sArr m c) :=
  (dats m 0 c).arrAt_eq_of_cover 2 (cosMat (N := 51200) (qArr m c) (sArr m c)) (fun t _ => flushed_eq m c t) cover

end Cert.KernelIdeal.Blocks

end
-- ==== Proof.KernelRun.lean ====
/-
  The kernel program's result: the cosine matrix of the queries against the support set.

  Before the region the support set is padded below with 1200 rows (to 51200 = 25 x 2048 rows); the first 50000 rows
  of the padded array are the support set's own. After the region the program keeps the first 50000 columns of the
  2048 x 51200 output. Column b < 50000 of the cosine matrix against the padded support set is computed from padded
  row b alone, which is support row b: the kept part is the cosine matrix of the queries against the support set
  itself, whatever the padding rows hold.
-/
import proofs.«109525_j2594160247418_1_alg».proof.Proof.KernelBlocks
import Idealize.ShloMosaic.Lib.KernelVsHost
import Idealize.ShloMosaic.Lib.ValueLayout
import Idealize.ShloMosaic.Lib.StableHlo.Run

set_option maxRecDepth 16384

noncomputable section

open scoped BigOperators

namespace Cert.KernelIdeal.Result

open Cert.KernelIdeal Cert.KernelIdeal.Gen Cert.KernelIdeal.Blocks Cert.Cosine
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The two argument arrays as launched. -/
abbrev sup (c : Dev nD) : S50000x512.Idx → EReal := m ((c : Thread nD τ).loc main_arg0)
abbrev qry (c : Dev nD) : S2048x512.Idx → EReal := m ((c : Thread nD τ).loc main_arg1)

/-- The support window's array is the support set padded below, by the host operations before the region. -/
theorem sArr_eq (c : Dev nD) :
    sArr m c = pad S51200x512 ![0, 0] ![1200, 0] ![0, 0] (sup m c) (sitofp (F := Ideal) .f32 (constantI S_ 32 0#32))
      pads_S50000x512_S51200x512_012000_000 h_S_ := by
  dsimp only [sArr, V, V0]
  simp only [hostOps0, hostOps0_1, List.flatten_cons, List.flatten_nil, List.append_nil, List.cons_append, List.nil_append]
  after_results
  rfl

/-- A row of the padded array below 50000 is the support set's row. -/
theorem sArr_row (c : Dev nD) (b : Fin 50000) (b' : Fin 51200) (hb : b'.val = b.val) (k : Fin 512) :
    sArr m c (ix2 b' k) = sup m c (ix2 b k) := by
  rw [sArr_eq]
  refine pad_apply_of_inside _ _ _ _ _ _ _ (ix2 b' k) (ix2 b k) fun a => ?_
  match a with
  | ⟨0, _⟩ => show b'.val = 0 + b.val * (0 + 1); omega
  | ⟨1, _⟩ => show k.val = 0 + k.val * (0 + 1); omega

/-- The program's result buffer after the lines that follow the region: the first 50000 columns of the output array. -/
theorem tail_eq (c : Dev nD) :
    Pipeline.afterTail₀ cfgs (dats m) 0 (V0 m) [hostOps1] c main_v2
      = extractStridedSlice S2048x50000 ![0, 0] ((dats m 0 c).arrAt 2 cfg0.N) slices_S2048x51200_S2048x50000_0_0 := by
  unfold Pipeline.afterTail₀
  show StableHlo.after hostOps1 _ (Proc.devRef .tc main_v2) = _
  after_results
  exact congrArg (fun x => extractStridedSlice S2048x50000 ![0, 0] x slices_S2048x51200_S2048x50000_0_0)
    (Pipeline.withArrays_arr spec0 launch0.win.arr_inj c _ _ 2)

/-- The kept columns of the cosine matrix against the padded support set are the cosine matrix against the support set. -/
theorem kept_eq (c : Dev nD) :
    extractStridedSlice S2048x50000 ![0, 0] (cosMat (N := 51200) (qArr m c) (sArr m c)) slices_S2048x51200_S2048x50000_0_0
      = cosMat (N := 50000) (qry m c) (sup m c) := by
  funext i
  obtain ⟨a, b, rfl⟩ : ∃ (a : Fin 2048) (b : Fin 50000), i = ix2 a b := ⟨i 0, i 1, eq_ix2 i⟩
  have hb : b.val < 51200 := by have := b.isLt; omega
  refine (slice2_axis1_apply 0 _ slices_S2048x51200_S2048x50000_0_0 a b ⟨b.val, hb⟩ (by simp)).trans ?_
  rw [cosMat_apply, cosMat_apply]
  exact congrArg₂ rowCos (funext fun k => congrFun (V_main_arg1 m c) (ix2 a k))
    (funext fun k => sArr_row m c b ⟨b.val, hb⟩ rfl k)

/-- After the frame run, the result buffer holds the cosine matrix of the queries against the support set. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v2) = cosMat (N := 50000) (qry m c) (sup m c) := by
  refine ((h c).2 main_v2 (Pipeline.mem_restRefs_of main_v2 (by decide) (by decide))).trans ?_
  rw [tail_eq, final]
  exact kept_eq m c

/-- After the frame run, the support set is as launched: no window stages it and no line after the region writes it. -/
theorem kept_sup (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- After the frame run, the queries are as launched: the query window stages them and never writes them back. -/
theorem kept_qry (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The run, read: the result buffer ends at the cosine matrix of the queries against the support set, the arguments
    unchanged. -/
theorem run : θ_run defs (onTc (τ := τ) (main (F := Ideal))) ⟨m, fun _ => 0, ρ⟩ fun r => ∀ c : Dev nD,
      r.2.mem ((c : Thread nD τ).loc main_v2) = cosMat (N := 50000) (qry m c) (sup m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post_result m r h c, kept_sup m r h c, kept_qry m r h c⟩) (run_main m ρ)

end Cert.KernelIdeal.Result

end
-- ==== Proof.RefValue.lean ====
/-
  The reference computes the cosine matrix.

  Read one operation at a time, the reference's result at (a, b) is the inner product of row a of the queries and row b
  of the support set (its one matrix product contracts the columns of both), divided by the larger of the guard
  constant and the product of the two rows' norms; each norm is the square root of zero plus the row's sum of squares,
  carried to the entry by broadcasts that read row a on the one side and row b on the other. That is the cosine of the
  two rows: the only arithmetic used is 0 + x = x.
-/
import proofs.«109525_j2594160247418_1_alg».proof.Proof.Gen.ReferenceIdeal.Read
import proofs.«109525_j2594160247418_1_alg».proof.Proof.Spec

noncomputable section

open scoped BigOperators

namespace Cert.ReferenceIdeal.RefValue

open Cert.ReferenceIdeal Cert.ReferenceIdeal.Read Cert.Cosine
open Idealize.ShloMosaic Idealize.ShloMosaic.ValueIdx

/-- The reference's last stage is the cosine matrix of the queries' rows against the support set's rows. -/
theorem ref_eq (s : (⟨S50000x512, .f32⟩ : BufTy).Contents (Elt Ideal)) (q : (⟨S2048x512, .f32⟩ : BufTy).Contents (Elt Ideal)) :
    val_main_v10 (F := Ideal) s q = cosMat q s := by
  funext i
  obtain ⟨a, b, rfl⟩ : ∃ (a : Fin 2048) (b : Fin 50000), i = ix2 a b := ⟨i 0, i 1, eq_ix2 i⟩
  have eL : ∀ k : Fin 512, lidx_main_v0 (ix2 a b) k = ix2 a k := fun k =>
    funext fun d => Fin.ext (by match d with | ⟨0, _⟩ => rfl | ⟨1, _⟩ => rfl)
  have eR : ∀ k : Fin 512, ridx_main_v0 (ix2 a b) k = ix2 b k := fun k =>
    funext fun d => Fin.ext (by match d with | ⟨0, _⟩ => rfl | ⟨1, _⟩ => rfl)
  have eQ : ∀ k : Fin 512, idx_main_call1_v1 (idx_main_v3 (idx_main_v5 (ix2 a b))) k = ix2 a k := fun k =>
    funext fun d => Fin.ext (by match d with | ⟨0, _⟩ => rfl | ⟨1, _⟩ => rfl)
  have eS : ∀ k : Fin 512, idx_main_call0_v1 (idx_main_v4 (idx_main_v6 (ix2 a b))) k = ix2 b k := fun k =>
    funext fun d => Fin.ext (by match d with | ⟨0, _⟩ => rfl | ⟨1, _⟩ => rfl)
  rw [val_main_v10_apply, val_main_v0_apply, val_main_v9_apply, val_main_v7_apply, val_main_v8_apply, val_main_cst_apply,
    val_main_v5_apply, val_main_v3_apply, val_main_v2_apply, val_main_call1_v1_apply,
    val_main_v6_apply, val_main_v4_apply, val_main_v1_apply, val_main_call0_v1_apply, cosMat_apply]
  unfold rowCos
  simp only [val_main_call0_v0_apply, val_main_call1_v0_apply, val_main_call0_cst_apply, val_main_call1_cst_apply,
    eL, eR, eQ, eS, Ideal.hostDivf_def, Ideal.maximumf_def, Ideal.mulf_def, Ideal.hostUnary_sqrt_def, Ideal.ofBits_def,
    Ideal.ofBits_zero_f32, zero_add]

end Cert.ReferenceIdeal.RefValue

end
-- ==== Proof.lean ====
/-
  The cosine-similarity matrix of 2048 query rows against 50000 support rows (512 columns each): a tiled kernel
  against the plain formula.

  Both programs compute, for query row a and support row b, the inner product of the two rows divided by the larger of
  a small guard constant and the product of the rows' Euclidean norms. The kernel pads the support set to 51200 rows,
  works on blocks of 256 query rows by 2048 support rows (one matrix product per block, with operands narrowed to a
  shorter float format, which is the identity on the extended reals, and the two rows' norms recomputed in each block),
  and keeps the first 50000 columns of its output. The reference takes one matrix product of the whole arrays, the two
  vectors of norms, their outer product, the guard, and the quotient.

  On the extended reals the two are the same function of the arguments entry by entry: every sum runs over the same 512
  terms in the same order, and the only law used is 0 + x = x (the kernel's row sums start from a neutral
  accumulator, the reference's from an explicit zero), which holds at the infinities too. So the finiteness of the
  inputs is never used. The padding rows never reach a kept column, because column b of a block depends on support
  row b alone.

  The modules: Spec (the cosine of two rows, the cosine matrix), KernelPay (the body's stored block at an entry),
  KernelBlocks (the blocks tile the output: the output array after the region), KernelRun (the padding before and the
  cut after the region: the kernel program's result), RefValue (the reference's result).
-/
import proofs.«109525_j2594160247418_1_alg».proof.Defs
import proofs.«109525_j2594160247418_1_alg».proof.Proof.Gen.Kernel
import proofs.«109525_j2594160247418_1_alg».proof.Proof.Gen.Kernel.Skeleton
import proofs.«109525_j2594160247418_1_alg».proof.Proof.Gen.Kernel.Launch
import proofs.«109525_j2594160247418_1_alg».proof.Proof.Gen.Kernel.Points
import proofs.«109525_j2594160247418_1_alg».proof.Proof.Gen.Kernel.Frame
import proofs.«109525_j2594160247418_1_alg».proof.Proof.Gen.KernelIdeal
import proofs.«109525_j2594160247418_1_alg».proof.Proof.Gen.KernelIdeal.Skeleton
import proofs.«109525_j2594160247418_1_alg».proof.Proof.Gen.KernelIdeal.Launch
import proofs.«109525_j2594160247418_1_alg».proof.Proof.Gen.KernelIdeal.Points
import proofs.«109525_j2594160247418_1_alg».proof.Proof.Gen.KernelIdeal.Frame
import proofs.«109525_j2594160247418_1_alg».proof.Proof.Gen.ReferenceIdeal
import proofs.«109525_j2594160247418_1_alg».proof.Proof.Gen.ReferenceIdeal.Run
import proofs.«109525_j2594160247418_1_alg».proof.Proof.Gen.ReferenceIdeal.Read
import proofs.«109525_j2594160247418_1_alg».proof.Proof.Gen.Pre_finite_inputs
import proofs.«109525_j2594160247418_1_alg».proof.Proof.KernelRun
import proofs.«109525_j2594160247418_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the cosine matrix of the queries' rows against the support set's rows. -/
theorem algebraic : Cert.algebraic_KernelIdeal_ReferenceIdeal := by
  intro m ρ m' ρ' _ hagree
  refine ⟨fun c => Cert.Cosine.cosMat (N := 50000) (Cert.KernelIdeal.Result.qry m c) (Cert.KernelIdeal.Result.sup m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
